-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v9) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x4096 : Shape := ⟨2, ![8192, 4096]⟩
abbrev S4096x4096x8 : Shape := ⟨3, ![4096, 4096, 8]⟩
abbrev S4096 : Shape := ⟨1, ![4096]⟩
abbrev S1x1x8 : Shape := ⟨3, ![1, 1, 8]⟩
abbrev S_ : Shape := ⟨0, ![]⟩

class Facts : Prop where
  bcast_S_S8192x4096 : S_.BroadcastsInDim S8192x4096 (![] : Fin 0 → Fin S8192x4096.rank)
  reducesTo_S8192x4096_S_d0_1 : S8192x4096.ReducesTo [0, 1] S_
  h_S_ : 0 < S_.numel
  bcast_S_S4096x4096x8 : S_.BroadcastsInDim S4096x4096x8 (![] : Fin 0 → Fin S4096x4096x8.rank)
  reducesTo_S4096x4096x8_S_d0_1_2 : S4096x4096x8.ReducesTo [0, 1, 2] S_
  bcast_S_S4096 : S_.BroadcastsInDim S4096 (![] : Fin 0 → Fin S4096.rank)
  reducesTo_S4096_S_d0 : S4096.ReducesTo [0] S_
  bcast_S_S1x1x8 : S_.BroadcastsInDim S1x1x8 (![] : Fin 0 → Fin S1x1x8.rank)
  reducesTo_S1x1x8_S_d0_1_2 : S1x1x8.ReducesTo [0, 1, 2] S_

variable [Facts]

def fn_part1 {F : FTy → Type} [FloatOps F] (main_v13 : IVec S_ 1) (main_v16 : IVec S1x1x8 1) : IVec S_ 1 :=
  let main_c_5 : IVec S_ 1 := constantI S_ 1 1#1
  let main_v17 : IVec S_ 1 := (fun x v => Host.reduce IntOp.andi x v reducesTo_S1x1x8_S_d0_1_2 h_S_) main_v16 main_c_5
  let main_v18 : IVec S_ 1 := andi main_v13 main_v17
  main_v18

def fn {F : FTy → Type} [FloatOps F] (main_arg0 : FVec F S8192x4096 .f32) (main_arg1 : FVec F S4096x4096x8 .f32) (main_arg2 : FVec F S4096 .f32) (main_arg3 : FVec F S1x1x8 .f32) : IVec S_ 1 :=
  let main_v0 : FVec F S8192x4096 .f32 := Host.absf main_arg0
  let main_cst : FVec F S_ .f32 := constant S_ .f32 0x7F800000#32
  let main_v1 : FVec F S8192x4096 .f32 := broadcastInDim S8192x4096 ![] bcast_S_S8192x4096 main_cst
  let main_v2 : IVec S8192x4096 1 := cmpf .olt main_v0 main_v1
  let main_c : IVec S_ 1 := constantI S_ 1 1#1
  let main_v3 : IVec S_ 1 := (fun x v => Host.reduce IntOp.andi x v reducesTo_S8192x4096_S_d0_1 h_S_) main_v2 main_c
  let main_v4 : FVec F S4096x4096x8 .f32 := Host.absf main_arg1
  let main_cst_0 : FVec F S_ .f32 := constant S_ .f32 0x7F800000#32
  let main_v5 : FVec F S4096x4096x8 .f32 := broadcastInDim S4096x4096x8 ![] bcast_S_S4096x4096x8 main_cst_0
  let main_v6 : IVec S4096x4096x8 1 := cmpf .olt main_v4 main_v5
  let main_c_1 : IVec S_ 1 := constantI S_ 1 1#1
  let main_v7 : IVec S_ 1 := (fun x v => Host.reduce IntOp.andi x v reducesTo_S4096x4096x8_S_d0_1_2 h_S_) main_v6 main_c_1
  let main_v8 : IVec S_ 1 := andi main_v3 main_v7
  let main_v9 : FVec F S4096 .f32 := Host.absf main_arg2
  let main_cst_2 : FVec F S_ .f32 := constant S_ .f32 0x7F800000#32
  let main_v10 : FVec F S4096 .f32 := broadcastInDim S4096 ![] bcast_S_S4096 main_cst_2
  let main_v11 : IVec S4096 1 := cmpf .olt main_v9 main_v10
  let main_c_3 : IVec S_ 1 := constantI S_ 1 1#1
  let main_v12 : IVec S_ 1 := (fun x v => Host.reduce IntOp.andi x v reducesTo_S4096_S_d0 h_S_) main_v11 main_c_3
  let main_v13 : IVec S_ 1 := andi main_v8 main_v12
  let main_v14 : FVec F S1x1x8 .f32 := Host.absf main_arg3
  let main_cst_4 : FVec F S_ .f32 := constant S_ .f32 0x7F800000#32
  let main_v15 : FVec F S1x1x8 .f32 := broadcastInDim S1x1x8 ![] bcast_S_S1x1x8 main_cst_4
  let main_v16 : IVec S1x1x8 1 := cmpf .olt main_v14 main_v15
  fn_part1 (F := F) main_v13 main_v16
-- ==== Kernel.lean ====
abbrev S8192x4096 : Shape := ⟨2, ![8192, 4096]⟩
abbrev S4096x4096x8 : Shape := ⟨3, ![4096, 4096, 8]⟩
abbrev S4096 : Shape := ⟨1, ![4096]⟩
abbrev S1x1x8 : Shape := ⟨3, ![1, 1, 8]⟩
abbrev S_ : Shape := ⟨0, ![]⟩
abbrev S4096x4096 : Shape := ⟨2, ![4096, 4096]⟩
abbrev S1x4096 : Shape := ⟨2, ![1, 4096]⟩
abbrev S512x256 : Shape := ⟨2, ![512, 256]⟩
abbrev S4096x256 : Shape := ⟨2, ![4096, 256]⟩
abbrev S512x4096 : Shape := ⟨2, ![512, 4096]⟩

abbrev nBuf : Space → Nat
  | .hbm => 14
  | .vmem => 8
  | .smem => 0
  | _ => 0

abbrev bufTy : (tb : Table) → Fin (tcTables nBuf tb) → BufTy
  | .hbm, ⟨0, _⟩ => ⟨S8192x4096, .f32⟩
  | .hbm, ⟨1, _⟩ => ⟨S4096x4096x8, .f32⟩
  | .hbm, ⟨2, _⟩ => ⟨S4096, .f32⟩
  | .hbm, ⟨3, _⟩ => ⟨S1x1x8, .f32⟩
  | .hbm, ⟨4, _⟩ => ⟨S4096x4096x8, .f32⟩
  | .hbm, ⟨5, _⟩ => ⟨S4096x4096x8, .f32⟩
  | .hbm, ⟨6, _⟩ => ⟨S_, .f32⟩
  | .hbm, ⟨7, _⟩ => ⟨S4096x4096, .f32⟩
  | .hbm, ⟨8, _⟩ => ⟨S_, .f32⟩
  | .hbm, ⟨9, _⟩ => ⟨S4096x4096, .f32⟩
  | .hbm, ⟨10, _⟩ => ⟨S4096x4096, .f32⟩
  | .hbm, ⟨11, _⟩ => ⟨S4096x4096, .bf16⟩
  | .hbm, ⟨12, _⟩ => ⟨S1x4096, .f32⟩
  | .hbm, ⟨13, _⟩ => ⟨S8192x4096, .f32⟩
  | .local _ .vmem, ⟨0, _⟩ => ⟨S512x256, .f32⟩
  | .local _ .vmem, ⟨1, _⟩ => ⟨S512x256, .f32⟩
  | .local _ .vmem, ⟨2, _⟩ => ⟨S4096x256, .bf16⟩
  | .local _ .vmem, ⟨3, _⟩ => ⟨S4096x256, .bf16⟩
  | .local _ .vmem, ⟨4, _⟩ => ⟨S1x4096, .f32⟩
  | .local _ .vmem, ⟨5, _⟩ => ⟨S512x4096, .f32⟩
  | .local _ .vmem, ⟨6, _⟩ => ⟨S512x4096, .f32⟩
  | .local _ .vmem, ⟨7, _⟩ => ⟨S512x4096, .f32⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![16, 16], ![false, false]⟩

def k0_cond2 (i : grid0.Coords) : BitVec 1 :=
  let arg1 : BitVec 32 := BitVec.ofNat 32 (i 1).val
  let c15_i32 : BitVec 32 := 15#32
  let v13 : BitVec 1 := Scalar.cmpi .eq arg1 c15_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S4096x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 1 → Memref sig .tc .vmem S1x4096 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S512x4096 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

class Facts₀ : Prop where
  bcast_S1x1x8_S4096x4096x8_0_1_2 : S1x1x8.BroadcastsInDim S4096x4096x8 (![0, 1, 2] : Fin 3 → Fin S4096x4096x8.rank)
  reducesTo_S4096x4096x8_S4096x4096_d2 : S4096x4096x8.ReducesTo [2] S4096x4096
  h_S_ : 0 < S_.numel
  bcast_S_S4096x4096 : S_.BroadcastsInDim S4096x4096 (![] : Fin 0 → Fin S4096x4096.rank)
  bitsLt_bf16_f32 : FTy.bits .bf16 < FTy.bits .f32
  shapeCasts_S4096_S1x4096 : S4096.ShapeCasts S1x4096
  inb_S512x4096_S512x4096_0_0 : ∀ a, (![0, 0] : Fin 2 → Nat) a + S512x4096.size a ≤ S512x4096.size a
  h_S512x4096 : 0 < S512x4096.numel
  shapeCasts_S512x4096_S512x4096 : S512x4096.ShapeCasts S512x4096
  inb_S512x256_S512x256_0_0 : ∀ a, (![0, 0] : Fin 2 → Nat) a + S512x256.size a ≤ S512x256.size a
  h_S512x256 : 0 < S512x256.numel
  inb_S4096x256_S4096x256_0_0 : ∀ a, (![0, 0] : Fin 2 → Nat) a + S4096x256.size a ≤ S4096x256.size a
  h_S4096x256 : 0 < S4096x256.numel
  shapeCasts_S4096x256_S4096x256 : S4096x256.ShapeCasts S4096x256
  inb_S1x4096_S1x4096_0_0 : ∀ a, (![0, 0] : Fin 2 → Nat) a + S1x4096.size a ≤ S1x4096.size a
  h_S1x4096 : 0 < S1x4096.numel
  shapeCasts_S1x4096_S1x4096 : S1x4096.ShapeCasts S1x4096
  broadcasts_S1x4096_S512x4096 : S1x4096.Broadcasts S512x4096
  dot_S512x256_S4096x256_S512x4096_1_1_0_0_n_n_wf : DotDims.WF S512x256 S4096x256 S512x4096 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x256.size a ≤ S8192x4096.size a
  hwx0_0 : ∀ i : grid0.Coords, EltTy.bits .f32 = 32 ∨ (Rect.block (s := S8192x4096) S512x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4096x256.size a ≤ S4096x4096.size a
  hwx0_1 : ∀ i : grid0.Coords, EltTy.bits .bf16 = 32 ∨ (Rect.block (s := S4096x4096) S4096x256.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x4096.size a ≤ S1x4096.size a
  hwx0_2 : ∀ i : grid0.Coords, EltTy.bits .f32 = 32 ∨ (Rect.block (s := S1x4096) S1x4096.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x4096.size a ≤ S8192x4096.size a
  hwx0_3 : ∀ i : grid0.Coords, EltTy.bits .f32 = 32 ∨ (Rect.block (s := S8192x4096) S512x4096.size (cc0_transform_3 i) (hinb0_3 i)).WholeWords (EltTy.packing .f32)

variable [Facts₀]

def dot_S512x256_S4096x256_S512x4096_1_1_0_0_n_n : DotDims S512x256 S4096x256 S512x4096 where
  lhsContracting := [1]
  rhsContracting := [1]
  lhsNonContracting := [0]
  rhsNonContracting := [0]
  lhsBatch := []
  rhsBatch := []
  wf := dot_S512x256_S4096x256_S512x4096_1_1_0_0_n_n_wf

abbrev win0_0 : Pipeline.Window sig grid0 :=
  Pipeline.Window.ofSpec (Memref.whole main_arg0) S512x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v5) S4096x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v6) S1x4096.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v7) S512x4096.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond2 i == 1#1) | ⟨_ + 4, h⟩ => absurd h (Nat.not_lt.2 (Nat.le_add_left _ _))

class Facts : Prop extends Facts₀ where

variable [Facts]
-- ==== ReferenceIdeal.lean ====
abbrev S8192x4096 : Shape := ⟨2, ![8192, 4096]⟩
abbrev S4096x4096x8 : Shape := ⟨3, ![4096, 4096, 8]⟩
abbrev S4096 : Shape := ⟨1, ![4096]⟩
abbrev S1x1x8 : Shape := ⟨3, ![1, 1, 8]⟩
abbrev S_ : Shape := ⟨0, ![]⟩
abbrev S4096x4096 : Shape := ⟨2, ![4096, 4096]⟩
abbrev S1x4096 : Shape := ⟨2, ![1, 4096]⟩

abbrev nBuf : Space → Nat
  | .hbm => 16
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S4096x4096x8, .f32⟩
  | .hbm, ⟨2, _⟩ => ⟨S4096, .f32⟩
  | .hbm, ⟨3, _⟩ => ⟨S1x1x8, .f32⟩
  | .hbm, ⟨4, _⟩ => ⟨S4096x4096x8, .f32⟩
  | .hbm, ⟨5, _⟩ => ⟨S4096x4096x8, .f32⟩
  | .hbm, ⟨6, _⟩ => ⟨S_, .f32⟩
  | .hbm, ⟨7, _⟩ => ⟨S4096x4096, .f32⟩
  | .hbm, ⟨8, _⟩ => ⟨S_, .f32⟩
  | .hbm, ⟨9, _⟩ => ⟨S4096x4096, .f32⟩
  | .hbm, ⟨10, _⟩ => ⟨S4096x4096, .f32⟩
  | .hbm, ⟨11, _⟩ => ⟨S4096x4096, .f32⟩
  | .hbm, ⟨12, _⟩ => ⟨S8192x4096, .f32⟩
  | .hbm, ⟨13, _⟩ => ⟨S1x4096, .f32⟩
  | .hbm, ⟨14, _⟩ => ⟨S8192x4096, .f32⟩
  | .hbm, ⟨15, _⟩ => ⟨S8192x4096, .f32⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩

abbrev nD : Nat := 1
abbrev τ : Topo := Topo.v7x

variable {F : FTy → Type} [FloatOps F]

class Facts₀ : Prop where
  bcast_S1x1x8_S4096x4096x8_0_1_2 : S1x1x8.BroadcastsInDim S4096x4096x8 (![0, 1, 2] : Fin 3 → Fin S4096x4096x8.rank)
  reducesTo_S4096x4096x8_S4096x4096_d2 : S4096x4096x8.ReducesTo [2] S4096x4096
  h_S_ : 0 < S_.numel
  bcast_S_S4096x4096 : S_.BroadcastsInDim S4096x4096 (![] : Fin 0 → Fin S4096x4096.rank)
  transposes_S4096x4096_S4096x4096_1_0 : S4096x4096.Transposes [1, 0] S4096x4096
  bcast_S4096_S1x4096_1 : S4096.BroadcastsInDim S1x4096 (![1] : Fin 1 → Fin S1x4096.rank)
  bcast_S1x4096_S8192x4096_0_1 : S1x4096.BroadcastsInDim S8192x4096 (![0, 1] : Fin 2 → Fin S8192x4096.rank)
  dot_S8192x4096_S4096x4096_S8192x4096_1_0_0_1_n_n_wf : DotDims.WF S8192x4096 S4096x4096 S8192x4096 [1] [0] [0] [1] [] []

variable [Facts₀]

def dot_S8192x4096_S4096x4096_S8192x4096_1_0_0_1_n_n : DotDims S8192x4096 S4096x4096 S8192x4096 where
  lhsContracting := [1]
  rhsContracting := [0]
  lhsNonContracting := [0]
  rhsNonContracting := [1]
  lhsBatch := []
  rhsBatch := []
  wf := dot_S8192x4096_S4096x4096_S8192x4096_1_0_0_1_n_n_wf

class Facts : Prop extends Facts₀ where

variable [Facts]
-- ==== Proof.Pieces.lean ====
/-
  What one grid point's run of the kernel body leaves behind, as pure terms of what it found.

  The body keeps a running sum in a 512×4096 accumulator that survives from one grid point to the next. At a point it
  (only when the reduction index k is 0) overwrites the accumulator with zeros, then loads the accumulator, adds the
  product of the point's 512×256 block of x with the transpose of its 4096×256 block of w, and stores the sum back; and
  (only when k is the last index, 15) it loads the accumulator once more, adds the bias row to every row, and stores that
  into the output block. So whatever the case, the accumulator ends at

      acc' = acc + x_blk · w_blkᵀ        (acc the zero block when k = 0, else what the point before left)

  and, when k = 15, the output block ends at acc' + bias. Each statement below says that for one case of the two
  conditionals: the stores of the case cover the whole buffer, so reading them back is reading the last stored value, and
  every load of an input buffer returns the contents the buffer was handed over with.
-/
import proofs.«417993_j55413668053294_3_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem
open Idealize.ShloMosaic.Pipeline (Dat)

namespace Cert.KernelIdeal.Pieces

open Cert.KernelIdeal Cert.KernelIdeal.Gen

variable {F : FTy → Type} [FloatOps F]

/-- Every rectangle the body loads or stores through starts at the origin of its buffer. -/
theorem origin : (![0, 0] : Fin 2 → Nat) = fun _ => 0 := funext fun a => by fin_cases a <;> rfl

/-- k = 0 (and not the last index): the accumulator is first zeroed and then updated, so it ends at
    `0 + x_blk · w_blkᵀ`; the load between the two stores reads the zeros just written. -/
theorem acc_first (c : Dev nD) (i : grid0.Coords) (a2 : Memref sig .tc .vmem S512x256 .f32) (h2 : a2.IsWhole)
    (a3 : Memref sig .tc .vmem S4096x256 .bf16) (h3 : a3.IsWhole) (a4 : Memref sig .tc .vmem S1x4096 .f32) (h4 : a4.IsWhole)
    (a5 : Memref sig .tc .vmem S512x4096 .f32) (h5 : a5.IsWhole) (a6 : Memref sig .tc .vmem S512x4096 .f32) (h6 : a6.IsWhole)
    (hc0 : cond0_0 i) (hc1 : ¬cond0_1 i)
    (x0 : Vec F S512x256 .f32) (x1 : Vec F S4096x256 .bf16) (x2 : Vec F S1x4096 .f32) :
    sout0_A_0 c i a2 h2 a3 h3 a4 h4 a5 h5 a6 h6 hc0 hc1 x0 x1 x2 = k0_pay2 x0 x1 (k0_pay1 (F := F)) := by
  unfold sout0_A_0
  rw [View.read_writes_eq_canon _ _ _ (scover0_A_0 c i a2 h2 a3 h3 a4 h4 a5 h5 a6 h6 hc0 hc1 x0 x1 x2)]
  unfold kernelRun0_A
  dsimp only
  sl_unfold_words
  rw [View.canon_cons_unit_zero (S := S512x4096) origin, View.readCov_unit_zero (S := S512x4096) _ origin]
  simp only [View.readAt_eq_ld, h2.read_unread, h3.read_unread, View.ld_unit_zero (S := S512x256) origin,
    View.ld_unit_zero (S := S4096x256) origin]

/-- 0 < k < 15: the accumulator, found at `acc`, ends at `acc + x_blk · w_blkᵀ`. -/
theorem acc_middle (c : Dev nD) (i : grid0.Coords) (a2 : Memref sig .tc .vmem S512x256 .f32) (h2 : a2.IsWhole)
    (a3 : Memref sig .tc .vmem S4096x256 .bf16) (h3 : a3.IsWhole) (a4 : Memref sig .tc .vmem S1x4096 .f32) (h4 : a4.IsWhole)
    (a5 : Memref sig .tc .vmem S512x4096 .f32) (h5 : a5.IsWhole) (a6 : Memref sig .tc .vmem S512x4096 .f32) (h6 : a6.IsWhole)
    (hc0 : ¬cond0_0 i) (hc1 : ¬cond0_1 i)
    (x0 : Vec F S512x256 .f32) (x1 : Vec F S4096x256 .bf16) (x2 : Vec F S1x4096 .f32) (xs0 : Vec F S512x4096 .f32) :
    sout0_B_0 c i a2 h2 a3 h3 a4 h4 a5 h5 a6 h6 hc0 hc1 x0 x1 x2 xs0 = k0_pay2 x0 x1 xs0 := by
  unfold sout0_B_0
  rw [View.read_writes_eq_canon _ _ _ (scover0_B_0 c i a2 h2 a3 h3 a4 h4 a5 h5 a6 h6 hc0 hc1 x0 x1 x2 xs0)]
  unfold kernelRun0_B
  dsimp only
  sl_unfold_words
  rw [View.canon_unit_zero origin]
  simp only [View.readAt_eq_ld, h2.read_unread, h3.read_unread, h6.read_unread, View.ld_unit_zero (S := S512x256) origin,
    View.ld_unit_zero (S := S4096x256) origin, View.ld_unit_zero (S := S512x4096) origin]

/-- k = 15: the accumulator is updated exactly as in the middle of the reduction, -/
theorem acc_last (c : Dev nD) (i : grid0.Coords) (a2 : Memref sig .tc .vmem S512x256 .f32) (h2 : a2.IsWhole)
    (a3 : Memref sig .tc .vmem S4096x256 .bf16) (h3 : a3.IsWhole) (a4 : Memref sig .tc .vmem S1x4096 .f32) (h4 : a4.IsWhole)
    (a5 : Memref sig .tc .vmem S512x4096 .f32) (h5 : a5.IsWhole) (a6 : Memref sig .tc .vmem S512x4096 .f32) (h6 : a6.IsWhole)
    (hc0 : ¬cond0_0 i) (hc1 : cond0_1 i)
    (x0 : Vec F S512x256 .f32) (x1 : Vec F S4096x256 .bf16) (x2 : Vec F S1x4096 .f32) (xs0 : Vec F S512x4096 .f32) :
    sout0_C_0 c i a2 h2 a3 h3 a4 h4 a5 h5 a6 h6 hc0 hc1 x0 x1 x2 xs0 = k0_pay2 x0 x1 xs0 := by
  unfold sout0_C_0
  rw [View.read_writes_eq_canon _ _ _ (scover0_C_0 c i a2 h2 a3 h3 a4 h4 a5 h5 a6 h6 hc0 hc1 x0 x1 x2 xs0)]
  unfold kernelRun0_C
  dsimp only
  sl_unfold_words
  rw [View.canon_unit_zero origin]
  simp only [View.readAt_eq_ld, h2.read_unread, h3.read_unread, h6.read_unread, View.ld_unit_zero (S := S512x256) origin,
    View.ld_unit_zero (S := S4096x256) origin, View.ld_unit_zero (S := S512x4096) origin]

/-- and the output block receives the updated accumulator plus the bias row: the load that feeds the output store reads
    the accumulator as the update just left it. -/
theorem out_last (c : Dev nD) (i : grid0.Coords) (a2 : Memref sig .tc .vmem S512x256 .f32) (h2 : a2.IsWhole)
    (a3 : Memref sig .tc .vmem S4096x256 .bf16) (h3 : a3.IsWhole) (a4 : Memref sig .tc .vmem S1x4096 .f32) (h4 : a4.IsWhole)
    (a5 : Memref sig .tc .vmem S512x4096 .f32) (h5 : a5.IsWhole) (a6 : Memref sig .tc .vmem S512x4096 .f32) (h6 : a6.IsWhole)
    (hc0 : ¬cond0_0 i) (hc1 : cond0_1 i)
    (x0 : Vec F S512x256 .f32) (x1 : Vec F S4096x256 .bf16) (x2 : Vec F S1x4096 .f32) (xs0 : Vec F S512x4096 .f32) :
    out0_C_3 c i a2 h2 a3 h3 a4 h4 a5 h5 a6 h6 hc0 hc1 x0 x1 x2 xs0 = k0_pay3 (k0_pay2 x0 x1 xs0) x2 := by
  unfold out0_C_3
  rw [View.read_writes_eq_canon _ _ _ (cover0_C_3 c i a2 h2 a3 h3 a4 h4 a5 h5 a6 h6 hc0 hc1 x0 x1 x2 xs0)]
  unfold kernelRun0_C
  dsimp only
  sl_unfold_words
  rw [View.canon_unit_zero origin]
  simp only [View.readAt_eq_ld, h2.read_unread, h3.read_unread, h4.read_unread, h6.read_unread,
    View.ld_unit_zero (S := S512x256) origin, View.ld_unit_zero (S := S4096x256) origin,
    View.ld_unit_zero (S := S512x4096) origin, View.ld_unit_zero (S := S1x4096) origin,
    View.readCov_unit_zero (S := S512x4096) _ origin]

end Cert.KernelIdeal.Pieces

end
-- ==== Proof.Payload.lean ====
/-
  The body's three stored values read at one entry, over the extended reals.

  Over the extended reals a change of float format is the identity and a matrix product into a zero accumulator is the
  plain sum of products, so at row r and column j of a 512×4096 block:

      zeros                          :  0
      accumulator update             :  acc(r, j) + Σ_{q < 256} x_blk(r, q) · w_blk(j, q)
      output                         :  acc(r, j) + bias(0, j)

  The product contracts the second axis of both blocks (w is stored row-per-output-feature), which is what the four
  coordinate facts below say of the contraction's operand indices.
-/
import proofs.«417993_j55413668053294_3_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws

noncomputable section

open Idealize.ShloMosaic Idealize.ShloMosaic.ValueIdx

namespace Cert.KernelIdeal.Payload

open Cert.KernelIdeal Cert.KernelIdeal.Gen

/-- The left operand is read at the output's row … -/
theorem lhs_row (i : S512x4096.Idx) (q : dot_S512x256_S4096x256_S512x4096_1_1_0_0_n_n.contr.Idx) :
    (dot_S512x256_S4096x256_S512x4096_1_1_0_0_n_n.lhsIdx i q 0).val = (i 0).val := by
  unfold DotDims.lhsIdx
  rw [dif_neg (show ¬(0 : Fin S512x256.rank) ∈ dot_S512x256_S4096x256_S512x4096_1_1_0_0_n_n.lhsBatch by decide), dif_pos (show (0 : Fin S512x256.rank) ∈ dot_S512x256_S4096x256_S512x4096_1_1_0_0_n_n.lhsNonContracting by decide)]
  rfl
/-- … and at the contraction position; -/
theorem lhs_contr (i : S512x4096.Idx) (q : dot_S512x256_S4096x256_S512x4096_1_1_0_0_n_n.contr.Idx) :
    (dot_S512x256_S4096x256_S512x4096_1_1_0_0_n_n.lhsIdx i q 1).val = (q ⟨0, by decide⟩).val :=
  dot_S512x256_S4096x256_S512x4096_1_1_0_0_n_n.lhsIdx_val_of_single rfl i q
/-- the right operand at the output's COLUMN (its first axis is the output feature) … -/
theorem rhs_row (i : S512x4096.Idx) (q : dot_S512x256_S4096x256_S512x4096_1_1_0_0_n_n.contr.Idx) :
    (dot_S512x256_S4096x256_S512x4096_1_1_0_0_n_n.rhsIdx i q 0).val = (i 1).val := by
  unfold DotDims.rhsIdx
  rw [dif_neg (show ¬(0 : Fin S4096x256.rank) ∈ dot_S512x256_S4096x256_S512x4096_1_1_0_0_n_n.rhsBatch by decide), dif_pos (show (0 : Fin S4096x256.rank) ∈ dot_S512x256_S4096x256_S512x4096_1_1_0_0_n_n.rhsNonContracting by decide)]
  rfl
/-- … and at the contraction position. -/
theorem rhs_contr (i : S512x4096.Idx) (q : dot_S512x256_S4096x256_S512x4096_1_1_0_0_n_n.contr.Idx) :
    (dot_S512x256_S4096x256_S512x4096_1_1_0_0_n_n.rhsIdx i q 1).val = (q ⟨0, by decide⟩).val :=
  dot_S512x256_S4096x256_S512x4096_1_1_0_0_n_n.rhsIdx_val_of_single rfl i q

/-- The block the accumulator is reset to holds zero everywhere. -/
theorem zeros_apply (y : S512x4096.Idx) : k0_pay1 (F := Ideal) y = 0 := by
  unfold k0_pay1
  simp only [shapeCast_self]
  show Ideal.ofBits .f32 0x00000000#32 = 0
  exact Ideal.ofBits_zero_f32

/-- The accumulator update at (r, j): the old entry plus the 256-term dot product of row r of the x block with row j of
    the w block. -/
theorem update_apply (x0 : Vec Ideal S512x256 .f32) (x1 : Vec Ideal S4096x256 .bf16) (acc : Vec Ideal S512x4096 .f32)
    (r : Fin 512) (j : Fin 4096) :
    k0_pay2 (F := Ideal) x0 x1 acc (ix2 r j) = acc (ix2 r j) + ∑ q : Fin 256, x0 (ix2 r q) * x1 (ix2 j q) := by
  unfold k0_pay2
  simp only [shapeCast_self]
  rw [addf_apply]
  simp only [matmul]
  rw [Ideal.matmul_constant_zero_apply, ← Equiv.sum_comp (contrEquiv1 dot_S512x256_S4096x256_S512x4096_1_1_0_0_n_n 256 rfl rfl).symm]
  refine congrArg (acc (ix2 r j) + ·) (Finset.sum_congr rfl fun q _ => ?_)
  have hq := contrEquiv1_symm_val dot_S512x256_S4096x256_S512x4096_1_1_0_0_n_n 256 rfl rfl q
  have el : dot_S512x256_S4096x256_S512x4096_1_1_0_0_n_n.lhsIdx (ix2 r j) ((contrEquiv1 dot_S512x256_S4096x256_S512x4096_1_1_0_0_n_n 256 rfl rfl).symm q) = ix2 r q := funext fun a => Fin.ext (by
    match a with
    | ⟨0, _⟩ => exact lhs_row _ _
    | ⟨1, _⟩ => exact (lhs_contr _ _).trans hq)
  have er : dot_S512x256_S4096x256_S512x4096_1_1_0_0_n_n.rhsIdx (ix2 r j) ((contrEquiv1 dot_S512x256_S4096x256_S512x4096_1_1_0_0_n_n 256 rfl rfl).symm q) = ix2 j q := funext fun a => Fin.ext (by
    match a with
    | ⟨0, _⟩ => exact rhs_row _ _
    | ⟨1, _⟩ => exact (rhs_contr _ _).trans hq)
  rw [el, er]
  rfl

/-- The output at (r, j): the accumulator's entry plus the bias of column j. -/
theorem output_apply (acc : Vec Ideal S512x4096 .f32) (b : Vec Ideal S1x4096 .f32) (r : Fin 512) (j : Fin 4096) :
    k0_pay3 (F := Ideal) acc b (ix2 r j) = acc (ix2 r j) + b (ix2 (0 : Fin 1) j) := by
  unfold k0_pay3
  simp only [shapeCast_self]
  show acc (ix2 r j) + broadcastTo S512x4096 b broadcasts_S1x4096_S512x4096 (ix2 r j) = _
  rw [broadcastTo_1b_ab_apply]

end Cert.KernelIdeal.Payload

end
-- ==== Proof.Blocks.lean ====
/-
  The blocks a grid point works on, as entries of the whole arrays.

  The grid has 16 × 16 points; point t has row-tile index t / 16 and reduction index t % 16. At point t the kernel is
  handed rows 512·(t/16) … +511 and columns 256·(t%16) … +255 of x; all 4096 rows and columns 256·(t%16) … +255 of the
  (format-converted) weight matrix; the whole 1 × 4096 bias row; and it produces rows 512·(t/16) … +511 of the result.
  An entry of a block is the array's entry at block index × block size + the coordinate inside the block, axis by axis.
-/
import proofs.«417993_j55413668053294_3_alg».proof.Proof.Gen.KernelIdeal.Frame
import Idealize.ShloMosaic.Lib.ValueIdx
import Idealize.ShloMosaic.Lib.Pipeline.Value

noncomputable section

open Idealize.ShloMosaic Idealize.ShloMosaic.TcCoe Idealize.SL.Sem Idealize.ShloMosaic.ValueIdx

namespace Cert.KernelIdeal.Blocks

open Cert.KernelIdeal Cert.KernelIdeal.Gen

variable {F : FTy → Type} [FloatOps F]
variable (m : (ℓ : Loc nD τ sig) → Buf (Elt F) ℓ)

/-- The arrays the region works on, as it finds them: x, the weight matrix after the host's reconstruction and format
    conversion, and the bias as one row. -/
abbrev xarr (c : Dev nD) : Vec F S8192x4096 .f32 := V m c main_arg0
abbrev warr (c : Dev nD) : Vec F S4096x4096 .bf16 := V m c main_v5
abbrev barr (c : Dev nD) : Vec F S1x4096 .f32 := V m c main_v6

/-- The three input blocks of point `t`. -/
abbrev xblk (c : Dev nD) (t : Fin cfg0.N) : Vec F S512x256 .f32 := iblk m c 0 t
abbrev wblk (c : Dev nD) (t : Fin cfg0.N) : Vec F S4096x256 .bf16 := iblk m c 1 t
abbrev bblk (c : Dev nD) (t : Fin cfg0.N) : Vec F S1x4096 .f32 := iblk m c 2 t

/-- Which block of each array point `t` is on: decided over the 256 points. -/
theorem x_index : ∀ t : Fin cfg0.N, win0_0.index t (0 : Fin 2) = t.val / 16 ∧ win0_0.index t (1 : Fin 2) = t.val % 16 :=
  (by decide +kernel : ∀ t : Fin grid0.N, win0_0.index t (0 : Fin 2) = t.val / 16 ∧ win0_0.index t (1 : Fin 2) = t.val % 16)
theorem w_index : ∀ t : Fin cfg0.N, win0_1.index t (0 : Fin 2) = 0 ∧ win0_1.index t (1 : Fin 2) = t.val % 16 :=
  (by decide +kernel : ∀ t : Fin grid0.N, win0_1.index t (0 : Fin 2) = 0 ∧ win0_1.index t (1 : Fin 2) = t.val % 16)
theorem b_index : ∀ t : Fin cfg0.N, win0_2.index t (0 : Fin 2) = 0 ∧ win0_2.index t (1 : Fin 2) = 0 :=
  (by decide +kernel : ∀ t : Fin grid0.N, win0_2.index t (0 : Fin 2) = 0 ∧ win0_2.index t (1 : Fin 2) = 0)
theorem o_index : ∀ t : Fin cfg0.N, win0_3.index t (0 : Fin 2) = t.val / 16 ∧ win0_3.index t (1 : Fin 2) = 0 :=
  (by decide +kernel : ∀ t : Fin grid0.N, win0_3.index t (0 : Fin 2) = t.val / 16 ∧ win0_3.index t (1 : Fin 2) = 0)

/-- Entry (r, q) of the x block of point `t` is x at row 512·(t/16) + r, column 256·(t%16) + q. -/
theorem xblk_apply (c : Dev nD) (t : Fin cfg0.N) (r : Fin 512) (q : Fin 256) (i : S8192x4096.Idx)
    (h0 : (i 0).val = 512 * (t.val / 16) + r.val) (h1 : (i 1).val = 256 * (t.val % 16) + q.val) :
    xblk m c t (ix2 r q) = xarr m c i := by
  unfold xblk iblk
  rw [View.read_apply]
  show V m c main_arg0 _ = V m c main_arg0 i
  refine congrArg _ (funext fun a => Fin.ext ?_)
  match a with
  | ⟨0, _⟩ => show win0_0.index t 0 * 512 + 1 * r.val = (i 0).val; rw [(x_index t).1, h0]; omega
  | ⟨1, _⟩ => show win0_0.index t 1 * 256 + 1 * q.val = (i 1).val; rw [(x_index t).2, h1]; omega

/-- Entry (j, q) of the weight block of point `t` is the weight matrix at row j, column 256·(t%16) + q. -/
theorem wblk_apply (c : Dev nD) (t : Fin cfg0.N) (j : Fin 4096) (q : Fin 256) (i : S4096x4096.Idx)
    (h0 : (i 0).val = j.val) (h1 : (i 1).val = 256 * (t.val % 16) + q.val) :
    wblk m c t (ix2 j q) = warr m c i := by
  unfold wblk iblk
  rw [View.read_apply]
  show V m c main_v5 _ = V m c main_v5 i
  refine congrArg _ (funext fun a => Fin.ext ?_)
  match a with
  | ⟨0, _⟩ => show win0_1.index t 0 * 4096 + 1 * j.val = (i 0).val; rw [(w_index t).1, h0]; omega
  | ⟨1, _⟩ => show win0_1.index t 1 * 256 + 1 * q.val = (i 1).val; rw [(w_index t).2, h1]; omega

/-- The bias block of every point is the whole bias row. -/
theorem bblk_apply (c : Dev nD) (t : Fin cfg0.N) (j : Fin 4096) :
    bblk m c t (ix2 (0 : Fin 1) j) = barr m c (ix2 (0 : Fin 1) j) := by
  unfold bblk iblk
  rw [View.read_apply]
  show V m c main_v6 _ = V m c main_v6 _
  refine congrArg _ (funext fun a => Fin.ext ?_)
  match a with
  | ⟨0, _⟩ => show win0_2.index t 0 * 1 + 1 * 0 = 0; rw [(b_index t).1]
  | ⟨1, _⟩ => show win0_2.index t 1 * 4096 + 1 * j.val = j.val; rw [(b_index t).2]; omega

end Cert.KernelIdeal.Blocks

end
-- ==== Proof.BlockSum.lean ====
/-
  A sum over 4096 columns, taken in 16 consecutive blocks of 256.

  Column k of the contracted axis lies in block k / 256 at offset k % 256, and (s, q) ↦ 256·s + q is a bijection between
  {0..15} × {0..255} and {0..4095}. So, in any commutative additive monoid — in particular in the extended reals, where
  a sum may contain infinities — summing block by block and then over the blocks is summing over all columns: only
  commutativity and associativity of + are used, never cancellation or distributivity, so no finiteness is needed.
-/
import Mathlib.Algebra.BigOperators.Fin
import Mathlib.Data.Fintype.BigOperators
import Mathlib.Logic.Equiv.Fin.Basic

namespace Cert.BlockSum

/-- Column 256·s + q: offset q of block s. -/
def col (s : Fin 16) (q : Fin 256) : Fin 4096 := ⟨256 * s.val + q.val, by have := s.isLt; have := q.isLt; omega⟩

theorem col_val (s : Fin 16) (q : Fin 256) : (col s q).val = 256 * s.val + q.val := rfl

/-- The blockwise double sum is the sum over all 4096 columns. -/
theorem sum_blocks {M : Type*} [AddCommMonoid M] (f : Fin 4096 → M) :
    ∑ s : Fin 16, ∑ q : Fin 256, f (col s q) = ∑ k : Fin 4096, f k := by
  have e : ∑ k : Fin 4096, f k = ∑ p : Fin 16 × Fin 256, f (finProdFinEquiv p) :=
    (Equiv.sum_comp (finProdFinEquiv (m := 16) (n := 256)) f).symm
  rw [e, Fintype.sum_prod_type]
  refine Finset.sum_congr rfl fun s _ => Finset.sum_congr rfl fun q _ => congrArg f (Fin.ext ?_)
  show 256 * s.val + q.val = q.val + 256 * s.val
  omega

end Cert.BlockSum
-- ==== Proof.Result.lean ====
/-
  What the kernel leaves in its result array, over the extended reals.

  Fix a row tile i (rows 512·i … 512·i + 511). Its sixteen grid points 16·i, …, 16·i + 15 run the reduction over the
  sixteen column blocks: the first resets the accumulator to zero and adds its block's partial product, every later one
  adds its own, so after the point with reduction index k the accumulator's entry (r, j) is

      0 + Σ_{s ≤ k} Σ_{q < 256} x(512·i + r, 256·s + q) · w(j, 256·s + q),

  a sum whose terms are added in point order; and the last point writes the accumulator plus the bias row back as rows
  512·i … of the result. Only these sixteen last points write anything back, their blocks are the sixteen row tiles, and
  together they cover the array. So the result array is, entry by entry,

      out(a, j) = (Σ_{s < 16} Σ_{q < 256} x(a, 256·s + q) · w(j, 256·s + q)) + bias(0, j).
-/
import proofs.«417993_j55413668053294_3_alg».proof.Proof.Gen.KernelIdeal.Value
import proofs.«417993_j55413668053294_3_alg».proof.Proof.Pieces
import proofs.«417993_j55413668053294_3_alg».proof.Proof.Payload
import proofs.«417993_j55413668053294_3_alg».proof.Proof.Blocks
import proofs.«417993_j55413668053294_3_alg».proof.Proof.BlockSum
import Idealize.ShloMosaic.Lib.Pipeline.Value

noncomputable section

open Idealize.ShloMosaic Idealize.ShloMosaic.TcCoe Idealize.SL.Sem Idealize.ShloMosaic.ValueIdx
open Idealize.ShloMosaic.Pipeline (Dat)

namespace Cert.KernelIdeal.Result

open Cert.KernelIdeal Cert.KernelIdeal.Gen Cert.KernelIdeal.Blocks Cert.BlockSum

/-! ## One point's step on the accumulator, whatever the float instance -/

section Step

variable {F : FTy → Type} [FloatOps F]
variable (m : (ℓ : Loc nD τ sig) → Buf (Elt F) ℓ)

/-- At the first point of a row tile's run the accumulator ends at zero plus the point's partial product, whatever it held. -/
theorem step_reset (c : Dev nD) (n : ℕ) (hb : n < cfg0.N) (h0 : n % 16 = 0) (acc : Vec F S512x4096 .f32) :
    Value.scAt0_0 m c n hb acc = k0_pay2 (xblk m c (⟨n, hb⟩ : Fin cfg0.N)) (wblk m c (⟨n, hb⟩ : Fin cfg0.N)) (k0_pay1 (F := F)) := by
  have h1 : ¬n % 16 = 15 := by omega
  unfold Value.scAt0_0
  rw [dif_pos h0, dif_neg h1]
  exact Pieces.acc_first c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) scM0_0 (Memref.isWhole_whole _) _ _ (iblk m c 0 (⟨n, hb⟩ : Fin cfg0.N)) (iblk m c 1 (⟨n, hb⟩ : Fin cfg0.N)) (iblk m c 2 (⟨n, hb⟩ : Fin cfg0.N))

/-- At every later point it ends at what it held plus the point's partial product. -/
theorem step_add (c : Dev nD) (n : ℕ) (hb : n < cfg0.N) (h0 : ¬n % 16 = 0) (acc : Vec F S512x4096 .f32) :
    Value.scAt0_0 m c n hb acc = k0_pay2 (xblk m c (⟨n, hb⟩ : Fin cfg0.N)) (wblk m c (⟨n, hb⟩ : Fin cfg0.N)) acc := by
  unfold Value.scAt0_0
  by_cases h1 : n % 16 = 15
  · rw [dif_neg h0, dif_pos h1]
    exact Pieces.acc_last c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) scM0_0 (Memref.isWhole_whole _) _ _ (iblk m c 0 (⟨n, hb⟩ : Fin cfg0.N)) (iblk m c 1 (⟨n, hb⟩ : Fin cfg0.N)) (iblk m c 2 (⟨n, hb⟩ : Fin cfg0.N)) acc
  · rw [dif_neg h0, dif_neg h1]
    exact Pieces.acc_middle c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) scM0_0 (Memref.isWhole_whole _) _ _ (iblk m c 0 (⟨n, hb⟩ : Fin cfg0.N)) (iblk m c 1 (⟨n, hb⟩ : Fin cfg0.N)) (iblk m c 2 (⟨n, hb⟩ : Fin cfg0.N)) acc

/-- At a row tile's last point the output block is the accumulator as that point leaves it, plus the bias row. -/
theorem out_of_acc (c : Dev nD) (t : Fin cfg0.N) (h1 : t.val % 16 = 15) :
    (outsAt0 m c t.val t.isLt).1 = k0_pay3 (outsAt0 m c t.val t.isLt).2 (bblk m c t) := by
  have h0 : ¬t.val % 16 = 0 := by omega
  rw [outsAt0_C m c t h0 h1]
  dsimp only
  exact (Pieces.out_last c (grid0.coords t) (ms0_0 t) (hs0_0 t) (ms0_1 t) (hs0_1 t) (ms0_2 t) (hs0_2 t) (ms0_3 t) (hs0_3 t) scM0_0 (Memref.isWhole_whole _) _ _ (iblk m c 0 t) (iblk m c 1 t) (iblk m c 2 t) _).trans
    (congrArg (fun a => k0_pay3 a (bblk m c t)) (Pieces.acc_last c (grid0.coords t) (ms0_0 t) (hs0_0 t) (ms0_1 t) (hs0_1 t) (ms0_2 t) (hs0_2 t) (ms0_3 t) (hs0_3 t) scM0_0 (Memref.isWhole_whole _) _ _ (iblk m c 0 t) (iblk m c 1 t) (iblk m c 2 t) _).symm)

end Step

/-! ## Over the extended reals -/

variable (m : (ℓ : Loc nD τ sig) → Buf (Elt Ideal) ℓ) (ρ : Dev nD → PrngReg)

/-- The partial product point `n` adds, at entry y = (r, j) of the accumulator: the 256-term dot product of row r of its x
    block with row j of its weight block (zero past the grid, where it is never used). -/
def partialAt (c : Dev nD) (n : ℕ) : Vec Ideal S512x4096 .f32 := fun y =>
  if h : n < cfg0.N then ∑ q : Fin 256, xblk m c ⟨n, h⟩ (ix2 (y 0) q) * wblk m c ⟨n, h⟩ (ix2 (y 1) q) else 0

/-- THE ACCUMULATOR after point `t`: zero plus the partial products of the points of `t`'s run so far, in point order. -/
theorem acc_after (c : Dev nD) (t : Fin cfg0.N) (y : S512x4096.Idx) :
    (outsAt0 m c t.val t.isLt).2 y = 0 + ∑ s ∈ Finset.range (t.val % 16 + 1), partialAt m c (16 * (t.val / 16) + s) y := by
  rw [Value.soutsAt0_0_eq m c t]
  refine Pipeline.accAt_add_apply (fun n h => Value.scAt0_0 m c n h (VS0_0.read (Elt Ideal) VS0_0.junk)) (Value.scAt0_0 m c)
    (fun _ => 0) (partialAt m c) (16 * (t.val / 16)) 15 ?_ ?_ (t.val % 16) (by omega) _ y
  · intro h i
    show Value.scAt0_0 m c _ h _ i = 0 + partialAt m c _ i
    rw [step_reset m c _ h (by omega)]
    obtain ⟨p, q, rfl⟩ : ∃ (p : Fin 512) (q : Fin 4096), i = ix2 p q := ⟨i 0, i 1, eq_ix2 i⟩
    refine (Payload.update_apply (xblk m c ⟨_, h⟩) (wblk m c ⟨_, h⟩) _ p q).trans ?_
    rw [Payload.zeros_apply]
    unfold partialAt
    rw [dif_pos h]
  · intro n h acc i hlt hle
    rw [step_add m c n h (by omega)]
    obtain ⟨p, q, rfl⟩ : ∃ (p : Fin 512) (q : Fin 4096), i = ix2 p q := ⟨i 0, i 1, eq_ix2 i⟩
    refine (Payload.update_apply (xblk m c ⟨n, h⟩) (wblk m c ⟨n, h⟩) acc p q).trans ?_
    unfold partialAt
    rw [dif_pos h]

/-- THE RESULT, entry by entry: the dot product of row a of x with row j of the weight matrix, summed column block by
    column block, plus the bias of column j. -/
def out (c : Dev nD) : Vec Ideal S8192x4096 .f32 := fun i =>
  (∑ s : Fin 16, ∑ q : Fin 256, xarr m c (ix2 (i 0) (col s q)) * warr m c (ix2 (i 1) (col s q)))
    + barr m c (ix2 (0 : Fin 1) (i 1))

/-- The output block of a row tile's last point, at (p, j), is `out` at row 512·(t/16) + p, column j. -/
theorem outblk_apply (c : Dev nD) (t : Fin cfg0.N) (h1 : t.val % 16 = 15) (p : Fin 512) (j : Fin 4096) (i : S8192x4096.Idx)
    (hi0 : (i 0).val = 512 * (t.val / 16) + p.val) (hi1 : (i 1).val = j.val) :
    (outsAt0 m c t.val t.isLt).1 (ix2 p j) = out m c i := by
  have hN : cfg0.N = 256 := N_0
  have ht : t.val < 256 := lt_of_lt_of_eq t.isLt hN
  rw [out_of_acc m c t h1]
  refine (Payload.output_apply _ (bblk m c t) p j).trans ?_
  rw [acc_after m c t (ix2 p j), h1, zero_add, Finset.sum_range, bblk_apply]
  unfold out
  have ej : (i 1) = j := Fin.ext hi1
  rw [ej]
  refine congrArg (· + barr m c (ix2 (0 : Fin 1) j)) (Finset.sum_congr rfl fun s _ => ?_)
  have hs : 16 * (t.val / 16) + s.val < cfg0.N := lt_of_lt_of_eq (by have := s.isLt; omega : 16 * (t.val / 16) + s.val < 256) hN.symm
  unfold partialAt
  rw [dif_pos hs]
  refine Finset.sum_congr rfl fun q _ => ?_
  have hd : (16 * (t.val / 16) + s.val) / 16 = t.val / 16 := by have := s.isLt; omega
  have hm : (16 * (t.val / 16) + s.val) % 16 = s.val := by have := s.isLt; omega
  rw [xblk_apply m c ⟨_, hs⟩ p q (ix2 (i 0) (col s q)) (by show (i 0).val = 512 * ((16 * (t.val / 16) + s.val) / 16) + p.val; rw [hd, hi0])
      (by show (col s q).val = 256 * ((16 * (t.val / 16) + s.val) % 16) + q.val; rw [hm, col_val]),
    wblk_apply m c ⟨_, hs⟩ j q (ix2 j (col s q)) rfl
      (by show (col s q).val = 256 * ((16 * (t.val / 16) + s.val) % 16) + q.val; rw [hm, col_val])]

/-- WHAT A FLUSHING POINT WRITES BACK is its block of `out`: only the last point of each row tile's run writes back. -/
theorem flushed_eq (c : Dev nD) (t : Fin cfg0.N) (hf : (cfg0.win 3).flush t = true) :
    (dats m 0 c).flushed 3 t = ((cfg0.win 3).blk t).view.read (Elt Ideal) (out m c) := by
  have h1 : t.val % 16 = 15 := (flush0_3 t).mp hf
  rw [Value.flushed3]
  funext y
  rw [View.read_apply]
  have hy0 : (y 0).val < 512 := (y 0).isLt
  have hy1 : (y 1).val < 4096 := (y 1).isLt
  show (outsAt0 m c t.val t.isLt).1 ((cfg0.win 3).xinj (grid0.coords t) y) = out m c (((cfg0.win 3).blk t).view.emb y)
  have hx : (cfg0.win 3).xinj (grid0.coords t) y = ix2 (⟨(y 0).val, hy0⟩ : Fin 512) (⟨(y 1).val, hy1⟩ : Fin 4096) :=
    funext fun a => Fin.ext (by match a with | ⟨0, _⟩ => rfl | ⟨1, _⟩ => rfl)
  rw [hx]
  exact outblk_apply m c t h1 _ _ _
    (by show win0_3.index t 0 * 512 + 1 * (y 0).val = 512 * (t.val / 16) + (y 0).val; rw [(o_index t).1]; omega)
    (by show win0_3.index t 1 * 4096 + 1 * (y 1).val = (y 1).val; rw [(o_index t).2]; omega)

/-- An entry of the result array is in point `t`'s block iff each coordinate is in the block's range on its axis. -/
theorem mem_outblk (t : Fin cfg0.N) (i : S8192x4096.Idx) :
    i ∈ ((cfg0.win 3).blk t).view.set ↔ ∀ a : Fin 2, win0_3.index t a * S512x4096.size a ≤ (i a).val ∧ (i a).val < win0_3.index t a * S512x4096.size a + S512x4096.size a := by
  show i ∈ ((View.whole main_v7).slice (win0_3.rect t)).set ↔ _
  rw [View.set_slice_whole, Rect.mem_set_unit]
  exact Iff.rfl

/-- Row a lies in the block written back by the last point of row tile a / 512. -/
theorem covered (i : S8192x4096.Idx) : ∃ t : Fin cfg0.N, (cfg0.win 3).flush t = true ∧ i ∈ ((cfg0.win 3).blk t).view.set := by
  have hN : cfg0.N = 256 := N_0
  have hi0 : (i 0).val < 8192 := (i 0).isLt
  have hi1 : (i 1).val < 4096 := (i 1).isLt
  have hlt : 16 * ((i 0).val / 512) + 15 < cfg0.N := lt_of_lt_of_eq (by omega : 16 * ((i 0).val / 512) + 15 < 256) hN.symm
  refine ⟨⟨16 * ((i 0).val / 512) + 15, hlt⟩, (flush0_3 _).mpr (by show (16 * ((i 0).val / 512) + 15) % 16 = 15; omega), ?_⟩
  rw [mem_outblk]
  have e := o_index ⟨16 * ((i 0).val / 512) + 15, hlt⟩
  have e0 : win0_3.index ⟨16 * ((i 0).val / 512) + 15, hlt⟩ (0 : Fin 2) = (i 0).val / 512 := by
    rw [e.1]; show (16 * ((i 0).val / 512) + 15) / 16 = _; omega
  intro a
  match a with
  | ⟨0, _⟩ =>
    show win0_3.index _ (0 : Fin 2) * 512 ≤ (i 0).val ∧ (i 0).val < win0_3.index _ (0 : Fin 2) * 512 + 512
    rw [e0]; omega
  | ⟨1, _⟩ =>
    show win0_3.index _ (1 : Fin 2) * 4096 ≤ (i 1).val ∧ (i 1).val < win0_3.index _ (1 : Fin 2) * 4096 + 4096
    rw [e.2]; omega

/-- So the result array ends at `out`. -/
theorem final (c : Dev nD) : (dats m 0 c).arrAt 3 cfg0.N = out m c :=
  (dats m 0 c).arrAt_eq_of_cover 3 (out m c) (flushed_eq m c) covered

/-- The kernel's run, read: the result array at `out`, the four arguments unchanged. -/
theorem run : θ_run defs (onTc (τ := τ) (main (F := Ideal))) ⟨m, fun _ => 0, ρ⟩ fun r => ∀ c : Dev nD,
      r.2.mem ((c : Thread nD τ).loc main_v7) = out m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (final m c), (h c).2⟩) (Value.run_blocks m ρ)

end Cert.KernelIdeal.Result

end
-- ==== Proof.HostSide.lean ====
/-
  What the kernel's region finds in the arrays the host prepared, over the extended reals.

  Before the region the host computes the weight matrix exactly as the reference does (bit planes times base, summed over
  the bit axis, times the step) and then converts it to a narrower float format, which over the extended reals changes
  nothing; and it views the bias vector as a single row, which moves no entry: row 0, column j of the row is entry j.
  x itself is untouched.
-/
import proofs.«417993_j55413668053294_3_alg».proof.Proof.Blocks
import Idealize.ShloMosaic.Lib.StableHlo.Run
import Idealize.ShloMosaic.Lib.ValueIdx
import Idealize.ShloMosaic.Lib.Pipeline.Value

noncomputable section

open Idealize.ShloMosaic Idealize.ShloMosaic.TcCoe Idealize.SL.Sem Idealize.ShloMosaic.ValueIdx

namespace Cert.KernelIdeal.HostSide

open Cert.KernelIdeal Cert.KernelIdeal.Gen Cert.KernelIdeal.Blocks

variable (m : (ℓ : Loc nD τ sig) → Buf (Elt Ideal) ℓ)

/-- The weight matrix as the host reconstructs it from the bit planes `w_twos` and the base `base`. -/
def weights (x1 : Vec Ideal S4096x4096x8 .f32) (x3 : Vec Ideal S1x1x8 .f32) : Vec Ideal S4096x4096 .f32 :=
  mulf (Host.reduceAdd (mulf x1 (broadcastInDim S4096x4096x8 ![0, 1, 2] bcast_S1x1x8_S4096x4096x8_0_1_2 x3))
      (constant (F := Ideal) S_ .f32 0x00000000#32) reducesTo_S4096x4096x8_S4096x4096_d2 h_S_)
    (broadcastInDim S4096x4096 ![] bcast_S_S4096x4096 (constant (F := Ideal) S_ .f32 0x3C000000#32))

/-- The region finds x as launched. -/
theorem xarr_eq (c : Dev nD) : xarr m c = m ((c : Thread nD τ).loc main_arg0) := V_main_arg0 m c

/-- The region finds the reconstructed weight matrix, entry for entry (the format conversion is the identity). -/
theorem warr_apply (c : Dev nD) (i : S4096x4096.Idx) :
    warr m c i = weights (m ((c : Thread nD τ).loc main_arg1)) (m ((c : Thread nD τ).loc main_arg3)) i := by
  have e : (warr m c : FVec Ideal S4096x4096 .bf16)
      = truncf (F := Ideal) (s := S4096x4096) (φ := .f32) .bf16
          (weights (m ((c : Thread nD τ).loc main_arg1)) (m ((c : Thread nD τ).loc main_arg3))) bitsLt_bf16_f32 := by
    unfold weights
    dsimp only [warr, V, hostOps0]; after_results
  rw [e]
  rfl

/-- The region finds the bias as one row: its entry (0, j) is the bias vector's entry j. -/
theorem barr_apply (c : Dev nD) (j : Fin 4096) :
    barr m c (ix2 (0 : Fin 1) j) = m ((c : Thread nD τ).loc main_arg2) (ix1 j) := by
  have e : (barr m c : S1x4096.Idx → Elt Ideal .f32)
      = shapeCast S1x4096 (m ((c : Thread nD τ).loc main_arg2)) shapeCasts_S4096_S1x4096 := by
    dsimp only [barr, V, hostOps0]; after_results; rfl
  rw [e]
  refine shapeCast_apply (s := S4096) (t := S1x4096) _ _ _ _ ?_
  show (S4096.rowMajor (ix1 j)).val = (S1x4096.rowMajor (ix2 (0 : Fin 1) j)).val
  rw [Shape.rowMajor_val_one, Shape.rowMajor_val_two]
  show j.val = 0 * 4096 + j.val
  omega

end Cert.KernelIdeal.HostSide

end
-- ==== Proof.RefValue.lean ====
/-
  The reference, entry by entry, over the extended reals.

  The reference reconstructs the weight matrix w from the bit planes, transposes it, contracts x's columns with the
  transposed matrix's rows in one `dot_general`, and adds the bias broadcast over the rows. Reading the transpose at an
  index undoes it, so at row a and column j the reference is

      (Σ_{k < 4096} x(a, k) · w(j, k)) + b(j),

  and the sum over the 4096 columns is the sum over the sixteen blocks of 256 columns (`BlockSum.sum_blocks`), which is
  the grouping the kernel's reduction produces.
-/
import proofs.«417993_j55413668053294_3_alg».proof.Proof.Gen.ReferenceIdeal.Read
import proofs.«417993_j55413668053294_3_alg».proof.Proof.BlockSum
import Idealize.ShloMosaic.Lib.ValueIdx

noncomputable section

open Idealize.ShloMosaic Idealize.ShloMosaic.ValueIdx

namespace Cert.ReferenceIdeal.RefValue

open Cert.ReferenceIdeal Cert.ReferenceIdeal.Read Cert.BlockSum

/-- The reconstructed weight matrix: the bit planes weighted by the base, summed over the bit axis, scaled by the step. -/
abbrev weights (x1 : (⟨S4096x4096x8, .f32⟩ : BufTy).Contents (Elt Ideal)) (x3 : (⟨S1x1x8, .f32⟩ : BufTy).Contents (Elt Ideal)) :
    (⟨S4096x4096, .f32⟩ : BufTy).Contents (Elt Ideal) := val_main_v4 (F := Ideal) x1 x3

/-- The reference's result at (a, j): row a of x against row j of the weight matrix, column block by column block, plus
    the bias of column j. -/
theorem result_apply (x0 : (⟨S8192x4096, .f32⟩ : BufTy).Contents (Elt Ideal)) (x1 : (⟨S4096x4096x8, .f32⟩ : BufTy).Contents (Elt Ideal))
    (x2 : (⟨S4096, .f32⟩ : BufTy).Contents (Elt Ideal)) (x3 : (⟨S1x1x8, .f32⟩ : BufTy).Contents (Elt Ideal)) (i : S8192x4096.Idx) :
    val_main_v9 (F := Ideal) x0 x1 x2 x3 i
      = (∑ s : Fin 16, ∑ q : Fin 256, x0 (ix2 (i 0) (col s q)) * weights x1 x3 (ix2 (i 1) (col s q))) + x2 (ix1 (i 1)) := by
  rw [val_main_v9_apply]
  show val_main_v6 (F := Ideal) x0 x1 x3 i + val_main_v8 (F := Ideal) x2 i = _
  rw [val_main_v6_apply, val_main_v8_apply, val_main_v7_apply]
  refine congrArg₂ (· + ·) ((sum_blocks (fun k => x0 (lidx_main_v6 i k) * val_main_v5 (F := Ideal) x1 x3 (ridx_main_v6 i k))).symm.trans ?_) ?_
  · refine Finset.sum_congr rfl fun s _ => Finset.sum_congr rfl fun q _ => ?_
    rw [val_main_v5_apply]
    have e1 : lidx_main_v6 i (col s q) = ix2 (i 0) (col s q) :=
      funext fun a => Fin.ext (by match a with | ⟨0, _⟩ => rfl | ⟨1, _⟩ => rfl)
    have e2 : idx_main_v5 (ridx_main_v6 i (col s q)) = ix2 (i 1) (col s q) :=
      funext fun a => Fin.ext (by match a with | ⟨0, _⟩ => rfl | ⟨1, _⟩ => rfl)
    rw [e1, e2]
    rfl
  · exact congrArg x2 (funext fun a => Fin.ext (by match a with | ⟨0, _⟩ => rfl))

end Cert.ReferenceIdeal.RefValue

end
-- ==== Proof.lean ====
/-
  A dense layer on bit-plane weights: the kernel against its reference, over the extended reals.

  Both programs first rebuild a 4096 × 4096 weight matrix w from eight bit planes (w = (Σ_b planes_b · base_b) · step),
  with the same operations in the same order, and then compute  out = x · wᵀ + bias  for x of 8192 rows:

      out(a, j) = Σ_{k < 4096} x(a, k) · w(j, k) + bias(j).

  The reference does it with one transpose, one contraction and one broadcast add. The kernel converts w to a narrower
  float format (the identity over the extended reals), walks a 16 × 16 grid — row tiles of 512 rows by column blocks of
  256 columns —, keeps for each row tile a running sum that starts from zero and receives one block's partial product
  per grid point, and at the row tile's last point writes the running sum plus the bias row back. Its value is therefore
  the same sum with the 4096 columns grouped into sixteen consecutive blocks and the blocks added in order; regrouping a
  finite sum uses only commutativity and associativity of addition, which hold for every extended real, so the two
  results agree entry by entry on ALL inputs and the finiteness of the inputs is never used.

  The pieces: Proof/Pieces.lean (what one grid point's run leaves in the running sum and in the output block),
  Proof/Payload.lean (those values at one entry), Proof/Blocks.lean (a block's entry as the array's),
  Proof/BlockSum.lean (the regrouping law), Proof/Result.lean (the kernel's result array, by folding a row tile's run),
  Proof/HostSide.lean (what the host hands the kernel), Proof/RefValue.lean (the reference at one entry). The kernel's
  and the reference's runs, and the three frame claims, come from the generated modules.
-/
import proofs.«417993_j55413668053294_3_alg».proof.Defs
import proofs.«417993_j55413668053294_3_alg».proof.Proof.Gen.Kernel
import proofs.«417993_j55413668053294_3_alg».proof.Proof.Gen.Kernel.Skeleton
import proofs.«417993_j55413668053294_3_alg».proof.Proof.Gen.Kernel.Launch
import proofs.«417993_j55413668053294_3_alg».proof.Proof.Gen.Kernel.Points
import proofs.«417993_j55413668053294_3_alg».proof.Proof.Gen.Kernel.Frame
import proofs.«417993_j55413668053294_3_alg».proof.Proof.Gen.KernelIdeal
import proofs.«417993_j55413668053294_3_alg».proof.Proof.Gen.KernelIdeal.Skeleton
import proofs.«417993_j55413668053294_3_alg».proof.Proof.Gen.KernelIdeal.Launch
import proofs.«417993_j55413668053294_3_alg».proof.Proof.Gen.KernelIdeal.Points
import proofs.«417993_j55413668053294_3_alg».proof.Proof.Gen.KernelIdeal.Frame
import proofs.«417993_j55413668053294_3_alg».proof.Proof.Gen.ReferenceIdeal
import proofs.«417993_j55413668053294_3_alg».proof.Proof.Gen.KernelIdeal.Value
import proofs.«417993_j55413668053294_3_alg».proof.Proof.Gen.ReferenceIdeal.Run
import proofs.«417993_j55413668053294_3_alg».proof.Proof.Gen.ReferenceIdeal.Read
import proofs.«417993_j55413668053294_3_alg».proof.Proof.Gen.Pre_finite_inputs
import proofs.«417993_j55413668053294_3_alg».proof.Proof.Result
import proofs.«417993_j55413668053294_3_alg».proof.Proof.HostSide
import proofs.«417993_j55413668053294_3_alg».proof.Proof.RefValue
import Idealize.ShloMosaic.Adequacy
import Idealize.ShloMosaic.Init

noncomputable section

namespace Cert.Proof

open Idealize.ShloMosaic Idealize.ShloMosaic.TcCoe Idealize.SL.Sem

/-- The kernel as printed runs to the end and leaves its arguments alone. -/
theorem frame_kernel : Cert.frame_Kernel := fun m ρ _ => Cert.Kernel.Gen.frame m ρ

/-- So does its reading over the extended reals. -/
theorem frame_kernelIdeal : Cert.frame_KernelIdeal := fun m ρ _ => Cert.KernelIdeal.Gen.frame m ρ

/-- The reference is a straight line of host operations: its run, with the result forgotten. -/
theorem frame_referenceIdeal : Cert.frame_ReferenceIdeal := fun m ρ _ =>
  (θ_run Cert.ReferenceIdeal.defs _ _).mono (fun _ h c => (h c).2) (Cert.ReferenceIdeal.Value.run (F := Ideal) m ρ)

/-- Nothing of the kernel was rewritten on the way to the extended reals. -/
theorem preserves : Cert.preserves_Kernel_KernelIdeal := trivial

/-- The kernel's result array and the reference's are one function of the arguments: at (a, j) both are the sum over the
    sixteen column blocks of the products x(a, k) · w(j, k), plus bias(j) — the kernel's by its fold, the reference's by
    regrouping its one sum; the weight matrices are the same term of the same bit planes, and the kernel's bias row is
    the reference's bias vector. -/
theorem result_eq (m : (ℓ : Loc Cert.KernelIdeal.nD Cert.KernelIdeal.τ Cert.KernelIdeal.sig) → Buf (Elt Ideal) ℓ)
    (c : Dev Cert.KernelIdeal.nD) :
    Cert.ReferenceIdeal.Read.val_main_v9 (F := Ideal)
        (m ((c.tc : Thread Cert.KernelIdeal.nD Cert.KernelIdeal.τ).loc Cert.KernelIdeal.main_arg0))
        (m ((c.tc : Thread Cert.KernelIdeal.nD Cert.KernelIdeal.τ).loc Cert.KernelIdeal.main_arg1))
        (m ((c.tc : Thread Cert.KernelIdeal.nD Cert.KernelIdeal.τ).loc Cert.KernelIdeal.main_arg2))
        (m ((c.tc : Thread Cert.KernelIdeal.nD Cert.KernelIdeal.τ).loc Cert.KernelIdeal.main_arg3))
      = Cert.KernelIdeal.Result.out m c := by
  funext i
  rw [Cert.ReferenceIdeal.RefValue.result_apply]
  unfold Cert.KernelIdeal.Result.out
  refine congrArg₂ (· + ·) (Finset.sum_congr rfl fun s _ => Finset.sum_congr rfl fun q _ => ?_) ?_
  · rw [Cert.KernelIdeal.HostSide.warr_apply m c, Cert.KernelIdeal.HostSide.xarr_eq m c]
    rfl
  · exact (Cert.KernelIdeal.HostSide.barr_apply m c (i 1)).symm

/-- From memories that agree on the four arguments both programs run to the end with equal results. -/
theorem algebraic : Cert.algebraic_KernelIdeal_ReferenceIdeal := by
  intro m ρ m' ρ' _ hagree
  refine ⟨fun c => Cert.KernelIdeal.Result.out m c, Cert.KernelIdeal.Result.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v9_eq, (hagree c).1, (hagree c).2.1, (hagree c).2.2.1, (hagree c).2.2.2]
  exact result_eq m c

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
